-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S100000x64 .f32) (main_arg2 : IVec S2x1250000 32) (main_arg3 : FVec F S1250000 .f32) (main_arg4 : FVec F S64x64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1250000 .f32 := Host.absf main_arg3
  let main_cst_2 : FVec F S_ .f32 := constant S_ .f32 0x7F800000#32
  let main_v10 : FVec F S1250000 .f32 := broadcastInDim S1250000 ![] bcast_S_S1250000 main_cst_2
  let main_v11 : IVec S1250000 1 := cmpf .olt main_v9 main_v10
  let main_c_3 : IVec S_ 1 := constantI S_ 1 1#1
  let main_v12 : IVec S_ 1 := (fun x v => Host.reduce IntOp.andi x v reducesTo_S1250000_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S1x64 : Shape := ⟨2, ![1, 64]⟩
abbrev S5000x64 : Shape := ⟨2, ![5000, 64]⟩
abbrev S1x1250000 : Shape := ⟨2, ![1, 1250000]⟩
abbrev S_ : Shape := ⟨0, ![]⟩
abbrev S1250000x1 : Shape := ⟨2, ![1250000, 1]⟩
abbrev S1250000x64 : Shape := ⟨2, ![1250000, 64]⟩

abbrev nBuf : Space → Nat
  | .hbm => 37
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1250000, .i32⟩
  | .hbm, ⟨3, _⟩ => ⟨S1250000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S1x1250000, .i32⟩
  | .hbm, ⟨13, _⟩ => ⟨S1250000, .i32⟩
  | .hbm, ⟨14, _⟩ => ⟨S1x1250000, .i32⟩
  | .hbm, ⟨15, _⟩ => ⟨S1250000, .i32⟩
  | .hbm, ⟨16, _⟩ => ⟨S_, .i32⟩
  | .hbm, ⟨17, _⟩ => ⟨S1250000, .i32⟩
  | .hbm, ⟨18, _⟩ => ⟨S1250000, .i1⟩
  | .hbm, ⟨19, _⟩ => ⟨S_, .i32⟩
  | .hbm, ⟨20, _⟩ => ⟨S1250000, .i32⟩
  | .hbm, ⟨21, _⟩ => ⟨S1250000, .i32⟩
  | .hbm, ⟨22, _⟩ => ⟨S1250000, .i32⟩
  | .hbm, ⟨23, _⟩ => ⟨S1250000x1, .i32⟩
  | .hbm, ⟨24, _⟩ => ⟨S1250000x64, .f32⟩
  | .hbm, ⟨25, _⟩ => ⟨S1250000x1, .f32⟩
  | .hbm, ⟨26, _⟩ => ⟨S1250000x64, .f32⟩
  | .hbm, ⟨27, _⟩ => ⟨S1250000x64, .f32⟩
  | .hbm, ⟨28, _⟩ => ⟨S_, .i32⟩
  | .hbm, ⟨29, _⟩ => ⟨S1250000, .i32⟩
  | .hbm, ⟨30, _⟩ => ⟨S1250000, .i1⟩
  | .hbm, ⟨31, _⟩ => ⟨S_, .i32⟩
  | .hbm, ⟨32, _⟩ => ⟨S1250000, .i32⟩
  | .hbm, ⟨33, _⟩ => ⟨S1250000, .i32⟩
  | .hbm, ⟨34, _⟩ => ⟨S1250000, .i32⟩
  | .hbm, ⟨35, _⟩ => ⟨S1250000x1, .i32⟩
  | .hbm, ⟨36, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  dot_S5000x64_S64x64_S5000x64_1_0_0_1_n_n_wf : DotDims.WF S5000x64 S64x64 S5000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S1x1250000 : Shape := ⟨2, ![1, 1250000]⟩
abbrev S1x64 : Shape := ⟨2, ![1, 64]⟩
abbrev S_ : Shape := ⟨0, ![]⟩
abbrev S1250000x1 : Shape := ⟨2, ![1250000, 1]⟩
abbrev S1250000x64 : Shape := ⟨2, ![1250000, 64]⟩

abbrev nBuf : Space → Nat
  | .hbm => 39
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1250000, .i32⟩
  | .hbm, ⟨3, _⟩ => ⟨S1250000, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S1x1250000, .i32⟩
  | .hbm, ⟨8, _⟩ => ⟨S1250000, .i32⟩
  | .hbm, ⟨9, _⟩ => ⟨S1x1250000, .i32⟩
  | .hbm, ⟨10, _⟩ => ⟨S1250000, .i32⟩
  | .hbm, ⟨11, _⟩ => ⟨S64x64, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S64x64, .f32⟩
  | .hbm, ⟨17, _⟩ => ⟨S100000x64, .f32⟩
  | .hbm, ⟨18, _⟩ => ⟨S_, .i32⟩
  | .hbm, ⟨19, _⟩ => ⟨S1250000, .i32⟩
  | .hbm, ⟨20, _⟩ => ⟨S1250000, .i1⟩
  | .hbm, ⟨21, _⟩ => ⟨S_, .i32⟩
  | .hbm, ⟨22, _⟩ => ⟨S1250000, .i32⟩
  | .hbm, ⟨23, _⟩ => ⟨S1250000, .i32⟩
  | .hbm, ⟨24, _⟩ => ⟨S1250000, .i32⟩
  | .hbm, ⟨25, _⟩ => ⟨S1250000x1, .i32⟩
  | .hbm, ⟨26, _⟩ => ⟨S1250000x64, .f32⟩
  | .hbm, ⟨27, _⟩ => ⟨S1250000x1, .f32⟩
  | .hbm, ⟨28, _⟩ => ⟨S1250000x64, .f32⟩
  | .hbm, ⟨29, _⟩ => ⟨S1250000x64, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  dot_S100000x64_S64x64_S100000x64_1_0_0_1_n_n_wf : DotDims.WF S100000x64 S64x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.Edges.lean ====
/-
  What the program computes, as functions of its arguments over the extended reals.

  * `neiRows x w`   : the neighbour transform, row `r` of `x` against row `j` of `w`:
                        `(x · wᵀ)[r, j] = ∑ k, x[r, k] · w[j, k]`.
  * `selfRows x w b`: the self term, the same product plus the bias: `(x · wᵀ)[r, j] + b[j]`.
  * `edgeSum h o e a`: the message passing over the edge list `e` (row 0 the sources, row 1 the
                        destinations, a negative entry counted from the end): every edge gathers its source's
                        row of `h`, scales it by the edge's weight `a`, and the scaled rows are added into
                        `o` at the destinations.
  The result of the whole program is `edgeSum (neiRows x_src W_nei) (selfRows x_dst W_self b_self) e a`.
-/
import proofs.«145558_j23124103921910_1_alg».proof.KernelIdeal
import Idealize.ShloMosaic.PureOps.Ideal

noncomputable section

namespace Cert.KernelIdeal.Spec

open Cert.KernelIdeal Idealize.ShloMosaic

/-- Entry `(r, k)` of a node table. -/
abbrev nodeAt (i : S100000x64.Idx) (k : Fin 64) : S100000x64.Idx := fun a => match a with
  | ⟨0, _⟩ => ⟨(i 0).val, (i 0).isLt⟩
  | ⟨1, _⟩ => ⟨k.val, k.isLt⟩
/-- Entry `(j, k)` of a weight matrix, `j` the output feature of the index `i`. -/
abbrev weightAt (i : S100000x64.Idx) (k : Fin 64) : S64x64.Idx := fun a => match a with
  | ⟨0, _⟩ => ⟨(i 1).val, (i 1).isLt⟩
  | ⟨1, _⟩ => ⟨k.val, k.isLt⟩
/-- Entry `j` of the bias, `j` the output feature of the index `i`. -/
abbrev biasAt (i : S100000x64.Idx) : S64.Idx := fun a => match a with
  | ⟨0, _⟩ => ⟨(i 1).val, (i 1).isLt⟩

/-- `x · wᵀ`. -/
def neiRows (x : FVec Ideal S100000x64 .f32) (w : FVec Ideal S64x64 .f32) :
    FVec Ideal S100000x64 .f32 :=
  fun i => ∑ k : Fin 64, x (nodeAt i k) * w (weightAt i k)

/-- `x · wᵀ + b`. -/
def selfRows (x : FVec Ideal S100000x64 .f32) (w : FVec Ideal S64x64 .f32)
    (b : FVec Ideal S64 .f32) : FVec Ideal S100000x64 .f32 :=
  fun i => (∑ k : Fin 64, x (nodeAt i k) * w (weightAt i k)) + b (biasAt i)

variable [Facts₀]
open Facts₀

/-- Row `r` of the edge list as node numbers: a negative entry has the number of nodes added. -/
def endpoints (off : Fin 2 → Nat) (hs : S2x1250000.Slices off S1x1250000) (e : IVec S2x1250000 32) :
    IVec S1250000x1 32 :=
  broadcastInDim S1250000x1 ![0] bcast_S1250000_S1250000x1_0
    (select (cmpi .slt (shapeCast _ (extractStridedSlice S1x1250000 off e hs) shapeCasts_S1x1250000_S1250000) (broadcastInDim S1250000 ![] bcast_S_S1250000 (constantI S_ 32 0#32)))
      (addi (shapeCast _ (extractStridedSlice S1x1250000 off e hs) shapeCasts_S1x1250000_S1250000) (broadcastInDim S1250000 ![] bcast_S_S1250000 (constantI S_ 32 100000#32)))
      (shapeCast _ (extractStridedSlice S1x1250000 off e hs) shapeCasts_S1x1250000_S1250000))

/-- Gather the sources' rows of `h`, scale each by its edge's weight, add them into `o` at the destinations. -/
def edgeSum (h o : FVec Ideal S100000x64 .f32) (e : IVec S2x1250000 32)
    (a : FVec Ideal S1250000 .f32) : FVec Ideal S100000x64 .f32 :=
  Host.scatterAdd (F := Ideal) scatter_S100000x64_S1250000x1_S1250000x64_1_0_0_1 o (endpoints ![1, 0] slices_S2x1250000_S1x1250000_1_0 e)
    (mulf (F := Ideal) (Host.gather gather_S100000x64_S1250000x1_S1250000x64_1_0_n_n_0_1_164 h (endpoints ![0, 0] slices_S2x1250000_S1x1250000_0_0 e))
      (broadcastInDim S1250000x64 ![0, 1] bcast_S1250000x1_S1250000x64_0_1 (broadcastInDim S1250000x1 ![0] bcast_S1250000_S1250000x1_0 a)))

end Cert.KernelIdeal.Spec

end
-- ==== Proof.Payloads.lean ====
/-
  The two values the body stores, read at an index of the block, over the extended reals.

  With `xb` a block of 5000 rows and `wt` the transposed weight matrix as the body loads it, the first stored value
  at `(p, j)` is `∑ k, xb[p, k] · wt[k, j]` (a change of float format is the identity, the accumulator is the zero
  splat), and the second is the same sum plus the bias row's entry `(0, j)`.
-/
import proofs.«145558_j23124103921910_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.SL.Sem

/-! ## The product's operand indices, axis by axis -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry `(p, k)` of the row block, `p` the row of the index `i`. -/
abbrev rowAt (i : S5000x64.Idx) (k : Fin 64) : S5000x64.Idx := fun a => match a with
  | ⟨0, _⟩ => ⟨(i 0).val, (i 0).isLt⟩
  | ⟨1, _⟩ => ⟨k.val, k.isLt⟩
/-- Entry `(k, j)` of the transposed weights, `j` the column of the index `i`. -/
abbrev colAt (i : S5000x64.Idx) (k : Fin 64) : S64x64.Idx := fun a => match a with
  | ⟨0, _⟩ => ⟨k.val, k.isLt⟩
  | ⟨1, _⟩ => ⟨(i 1).val, (i 1).isLt⟩
/-- Entry `(0, j)` of the bias row. -/
abbrev biasRowAt (i : S5000x64.Idx) : S1x64.Idx := fun a => match a with
  | ⟨0, _⟩ => ⟨0, Nat.one_pos⟩
  | ⟨1, _⟩ => ⟨(i 1).val, (i 1).isLt⟩

/-- A block of rows times a square matrix into the zero accumulator, at an entry: the sum over the 64 shared
    coordinates. -/
theorem blockProduct_apply (l : FVec Ideal S5000x64 .bf16) (r : FVec Ideal S64x64 .bf16) (i : S5000x64.Idx) :
    matmul dot_S5000x64_S64x64_S5000x64_1_0_0_1_n_n none l r (constant S5000x64 .f32 0x00000000#32) i
      = ∑ k : Fin 64, l (rowAt i k) * r (colAt i k) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = rowAt i k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx i ((ValueIdx.contrEquiv1 dot_S5000x64_S64x64_S5000x64_1_0_0_1_n_n 64 rfl rfl).symm k) = colAt i k := funext fun a => Fin.ext (by
    match a with
    | ⟨0, _⟩ => exact (rhs_axis0 _ _).trans hk
    | ⟨1, _⟩ => exact rhs_axis1 _ _)
  rw [el, er]

/-! ## The stored values -/

/-- The first stored value at an entry. -/
theorem pay1_apply (xb : Vec Ideal S5000x64 .f32) (wt : Vec Ideal S64x64 .f32) (i : S5000x64.Idx) :
    k0_pay1 (F := Ideal) xb wt i = ∑ k : Fin 64, xb (rowAt i k) * wt (colAt i k) := by
  unfold k0_pay1
  rw [blockProduct_apply, shapeCast_self]
  rfl

/-- The second stored value at an entry. -/
theorem pay2_apply (xb : Vec Ideal S5000x64 .f32) (wt : Vec Ideal S64x64 .f32) (brow : Vec Ideal S1x64 .f32) (i : S5000x64.Idx) :
    k0_pay2 (F := Ideal) xb wt brow i = (∑ k : Fin 64, xb (rowAt i k) * wt (colAt i k)) + brow (biasRowAt i) := by
  unfold k0_pay2
  rw [ValueIdx.addf_apply, blockProduct_apply, shapeCast_self, shapeCast_self,
    broadcastTo_apply brow broadcasts_S1x64_S5000x64 i (biasRowAt i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])]
  rfl

end Cert.KernelIdeal.Body

end
-- ==== Proof.Arrays.lean ====
/-
  The two arrays the kernel region leaves, as whole-array functions of the program's arguments.

  The grid has 20 points; point `t` reads rows `5000 t … 5000 t + 4999` of each node table and the whole of the
  transposed weights and of the bias row, and writes back rows `5000 t … 5000 t + 4999` of both results. What it
  writes is the block of `neiRows` (first result) and of `selfRows` (second result) at those rows: entry `(p, j)` of the
  block is `∑ k, x[5000 t + p, k] · wᵀ[k, j]`, and `wᵀ[k, j] = w[j, k]`. The 20 blocks tile the 100000 rows, so each
  array ends as the whole function.
-/
import proofs.«145558_j23124103921910_1_alg».proof.Proof.Gen.KernelIdeal.Frame
import proofs.«145558_j23124103921910_1_alg».proof.Proof.Edges
import proofs.«145558_j23124103921910_1_alg».proof.Proof.Payloads
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Body Cert.KernelIdeal.Spec

variable (m : (ℓ : Loc nD τ sig) → Buf (Elt Ideal) ℓ)

theorem hz : (![0, 0] : Fin 2 → Nat) = fun _ => 0 := funext fun a => by fin_cases a <;> rfl

/-! ## What the region finds in the buffers the host lines before it wrote -/

/-- The first weight operand is `W_nei` transposed. -/
theorem V_wNeiT (c : Dev nD) : (V m c main_v0 : FVec Ideal S64x64 .f32)
    = transpose S64x64 [1, 0] (m ((c : Thread nD τ).loc main_arg4)) transposes_S64x64_S64x64_1_0 := by
  show StableHlo.after hostOps0 (fun b => m (c, b)) (Proc.devRef .tc main_v0) = _
  after_results
/-- The second weight operand is `W_self` transposed. -/
theorem V_wSelfT (c : Dev nD) : (V m c main_v1 : FVec Ideal S64x64 .f32)
    = transpose S64x64 [1, 0] (m ((c : Thread nD τ).loc main_arg5)) transposes_S64x64_S64x64_1_0 := by
  show StableHlo.after hostOps0 (fun b => m (c, b)) (Proc.devRef .tc main_v1) = _
  after_results
/-- The bias operand is `b_self` as one row. -/
theorem V_biasRow (c : Dev nD) : (V m c main_v2 : FVec Ideal S1x64 .f32)
    = shapeCast S1x64 (m ((c : Thread nD τ).loc main_arg6)) shapeCasts_S64_S1x64 := by
  show StableHlo.after hostOps0 (fun b => m (c, b)) (Proc.devRef .tc main_v2) = _
  after_results
  rfl

/-- The transposed weights at `(k, j)` are the weights at `(j, k)`. -/
theorem transposed_apply (w : FVec Ideal S64x64 .f32) (i : S100000x64.Idx) (k : Fin 64) (q : S64x64.Idx)
    (h0 : (q 0).val = k.val) (h1 : (q 1).val = (i 1).val) :
    transpose S64x64 [1, 0] w transposes_S64x64_S64x64_1_0 q = w (weightAt i k) :=
  transpose_apply [1, 0] w transposes_S64x64_S64x64_1_0 q (weightAt i k) (fun b => match b with
    | ⟨0, _⟩ => h0.symm
    | ⟨1, _⟩ => h1.symm)

/-- The bias row at `(0, j)` is the bias at `j`. -/
theorem biasRow_apply (b : FVec Ideal S64 .f32) (i : S100000x64.Idx) (q : S1x64.Idx) (h1 : (q 1).val = (i 1).val) :
    shapeCast S1x64 b shapeCasts_S64_S1x64 q = b (biasAt i) :=
  shapeCast_apply b shapeCasts_S64_S1x64 q (biasAt i)
    (by rewrite [Shape.rowMajor_val_two, Shape.rowMajor_val_one]
        have h0 : (q 0).val < 1 := (q 0).isLt
        show (i 1).val = (q 0).val * 64 + (q 1).val
        omega)

/-! ## The index maps over the grid -/

/-- Point `t` takes block `t` of the rows of both node tables and of both results, and block 0 of the rest. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## One point's stored values against the whole-array functions -/

/-- If the row block holds the rows of `x` at the index `i`'s row and the weight operand is `w` transposed, the first
    stored value at `j` is `neiRows x w` at `i`. -/
theorem pay1_rows (x : FVec Ideal S100000x64 .f32) (w : FVec Ideal S64x64 .f32)
    (xb : Vec Ideal S5000x64 .f32) (wt : Vec Ideal S64x64 .f32) (j : S5000x64.Idx) (i : S100000x64.Idx)
    (hx : ∀ k : Fin 64, xb (rowAt j k) = x (nodeAt i k)) (hw : ∀ k : Fin 64, wt (colAt j k) = w (weightAt i k)) :
    k0_pay1 (F := Ideal) xb wt j = neiRows x w i := by
  rw [pay1_apply]
  unfold neiRows
  exact Finset.sum_congr rfl fun k _ => by rw [hx k, hw k]

/-- The same for the second stored value and `selfRows`, the bias row holding `b`. -/
theorem pay2_rows (x : FVec Ideal S100000x64 .f32) (w : FVec Ideal S64x64 .f32) (b : FVec Ideal S64 .f32)
    (xb : Vec Ideal S5000x64 .f32) (wt : Vec Ideal S64x64 .f32) (brow : Vec Ideal S1x64 .f32) (j : S5000x64.Idx) (i : S100000x64.Idx)
    (hx : ∀ k : Fin 64, xb (rowAt j k) = x (nodeAt i k)) (hw : ∀ k : Fin 64, wt (colAt j k) = w (weightAt i k))
    (hb : brow (biasRowAt j) = b (biasAt i)) :
    k0_pay2 (F := Ideal) xb wt brow j = selfRows x w b i := by
  rw [pay2_apply]
  unfold selfRows
  rw [hb]
  exact congrArg (· + b (biasAt i)) (Finset.sum_congr rfl fun k _ => by rw [hx k, hw k])

/-! ## What a point writes back -/

/-- Point `t` writes back block `t` of `neiRows x_src W_nei`. -/
theorem flushed5_eq (c : Dev nD) (t : Fin cfg0.N) :
    (dats m 0 c).flushed 5 t = ((cfg0.win 5).blk t).view.read (Elt Ideal)
      (neiRows (m ((c : Thread nD τ).loc main_arg0)) (m ((c : Thread nD τ).loc main_arg4))) := by
  show (cfg0.win 5).cut (grid0.coords t) ((dats m 0 c).after 5 t) = _
  rw [after0_5]
  unfold out0_5
  rw [View.canon_unit_zero hz]
  simp only [View.ld_unit_zero (S := S5000x64) hz, View.ld_unit_zero (S := S64x64) hz]
  obtain ⟨e00, e01, e10, e11, e20, e21, e30, e31, e40, e41, e50, e51, e60, e61⟩ := idx_facts t
  funext j
  show k0_pay1 (F := Ideal) (iblk m c 0 t) (iblk m c 2 t) j = neiRows _ _ (((cfg0.win 5).blk t).view.emb j)
  refine pay1_rows _ _ _ _ j _ (fun k => ?_) (fun k => ?_)
  · show V m c main_arg0 (((cfg0.win 0).blk t).view.emb (rowAt j k)) = m ((c : Thread nD τ).loc main_arg0) (nodeAt (((cfg0.win 5).blk t).view.emb j) k)
    rw [V_main_arg0]
    refine congrArg _ (funext fun a => Fin.ext ?_)
    match a with
    | ⟨0, _⟩ => show win0_0.index t (0 : Fin 2) * 5000 + 1 * (j 0).val = win0_5.index t (0 : Fin 2) * 5000 + 1 * (j 0).val; rw [e00, e50]
    | ⟨1, _⟩ => show win0_0.index t (1 : Fin 2) * 64 + 1 * k.val = k.val; rw [e01]; omega
  · show V m c main_v0 (((cfg0.win 2).blk t).view.emb (colAt j k)) = m ((c : Thread nD τ).loc main_arg4) (weightAt (((cfg0.win 5).blk t).view.emb j) k)
    rw [V_wNeiT]
    refine transposed_apply _ _ k _ ?_ ?_
    · show win0_2.index t (0 : Fin 2) * 64 + 1 * k.val = k.val; rw [e20]; omega
    · show win0_2.index t (1 : Fin 2) * 64 + 1 * (j 1).val = win0_5.index t (1 : Fin 2) * 64 + 1 * (j 1).val; rw [e21, e51]

/-- Point `t` writes back block `t` of `selfRows x_dst W_self b_self`. -/
theorem flushed6_eq (c : Dev nD) (t : Fin cfg0.N) :
    (dats m 0 c).flushed 6 t = ((cfg0.win 6).blk t).view.read (Elt Ideal)
      (selfRows (m ((c : Thread nD τ).loc main_arg1)) (m ((c : Thread nD τ).loc main_arg5)) (m ((c : Thread nD τ).loc main_arg6))) := by
  show (cfg0.win 6).cut (grid0.coords t) ((dats m 0 c).after 6 t) = _
  rw [after0_6]
  unfold out0_6
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, e60, e61⟩ := idx_facts t
  funext j
  show k0_pay2 (F := Ideal) (iblk m c 1 t) (iblk m c 3 t) (iblk m c 4 t) j = selfRows _ _ _ (((cfg0.win 6).blk t).view.emb j)
  refine pay2_rows _ _ _ _ _ _ j _ (fun k => ?_) (fun k => ?_) ?_
  · show V m c main_arg1 (((cfg0.win 1).blk t).view.emb (rowAt j k)) = m ((c : Thread nD τ).loc main_arg1) (nodeAt (((cfg0.win 6).blk t).view.emb j) k)
    rw [V_main_arg1]
    refine congrArg _ (funext fun a => Fin.ext ?_)
    match a with
    | ⟨0, _⟩ => show win0_1.index t (0 : Fin 2) * 5000 + 1 * (j 0).val = win0_6.index t (0 : Fin 2) * 5000 + 1 * (j 0).val; rw [e10, e60]
    | ⟨1, _⟩ => show win0_1.index t (1 : Fin 2) * 64 + 1 * k.val = k.val; rw [e11]; omega
  · show V m c main_v1 (((cfg0.win 3).blk t).view.emb (colAt j k)) = m ((c : Thread nD τ).loc main_arg5) (weightAt (((cfg0.win 6).blk t).view.emb j) k)
    rw [V_wSelfT]
    refine transposed_apply _ _ k _ ?_ ?_
    · show win0_3.index t (0 : Fin 2) * 64 + 1 * k.val = k.val; rw [e30]; omega
    · show win0_3.index t (1 : Fin 2) * 64 + 1 * (j 1).val = win0_6.index t (1 : Fin 2) * 64 + 1 * (j 1).val; rw [e31, e61]
  · show V m c main_v2 (((cfg0.win 4).blk t).view.emb (biasRowAt j)) = m ((c : Thread nD τ).loc main_arg6) (biasAt (((cfg0.win 6).blk t).view.emb j))
    rw [V_biasRow]
    refine biasRow_apply _ _ _ ?_
    show win0_4.index t (1 : Fin 2) * 64 + 1 * (j 1).val = win0_6.index t (1 : Fin 2) * 64 + 1 * (j 1).val; rw [e41, e61]

/-! ## The blocks tile the rows -/

/-- An index is in point `t`'s block of the first result iff each coordinate is in the block's range. -/
theorem mem_blk5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v3_0).slice (win0_5.rect t)).set ↔ _
  rw [View.set_slice_whole, Rect.mem_set_unit]
  exact Iff.rfl
/-- The same for the second result. -/
theorem mem_blk6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v3_1).slice (win0_6.rect t)).set ↔ _
  rw [View.set_slice_whole, Rect.mem_set_unit]
  exact Iff.rfl

/-- The point whose block holds row `r` is `r / 5000`. -/
def pointOf (i : S100000x64.Idx) : Fin cfg0.N :=
  ⟨(i 0).val / 5000, by have h : (i 0).val < 100000 := (i 0).isLt; rw [show cfg0.N = 20 from N_0]; omega⟩

theorem cover5 (i : S100000x64.Idx) : ∃ t : Fin cfg0.N, (cfg0.win 5).flush t = true ∧ i ∈ ((cfg0.win 5).blk t).view.set := by
  refine ⟨pointOf i, flush0_5 _, ?_⟩
  rw [mem_blk5]
  obtain ⟨e00, e01, e10, e11, e20, e21, e30, e31, e40, e41, e50, e51, e60, e61⟩ := idx_facts (pointOf i)
  have h0 : (i 0).val < 100000 := (i 0).isLt
  have h1 : (i 1).val < 64 := (i 1).isLt
  have hp : (pointOf i).val = (i 0).val / 5000 := rfl
  intro a
  match a with
  | ⟨0, _⟩ => show win0_5.index (pointOf i) (0 : Fin 2) * 5000 ≤ (i 0).val ∧ (i 0).val < win0_5.index (pointOf i) (0 : Fin 2) * 5000 + 5000; rw [e50, hp]; omega
  | ⟨1, _⟩ => show win0_5.index (pointOf i) (1 : Fin 2) * 64 ≤ (i 1).val ∧ (i 1).val < win0_5.index (pointOf i) (1 : Fin 2) * 64 + 64; rw [e51]; omega

theorem cover6 (i : S100000x64.Idx) : ∃ t : Fin cfg0.N, (cfg0.win 6).flush t = true ∧ i ∈ ((cfg0.win 6).blk t).view.set := by
  refine ⟨pointOf i, flush0_6 _, ?_⟩
  rw [mem_blk6]
  obtain ⟨e00, e01, e10, e11, e20, e21, e30, e31, e40, e41, e50, e51, e60, e61⟩ := idx_facts (pointOf i)
  have h0 : (i 0).val < 100000 := (i 0).isLt
  have h1 : (i 1).val < 64 := (i 1).isLt
  have hp : (pointOf i).val = (i 0).val / 5000 := rfl
  intro a
  match a with
  | ⟨0, _⟩ => show win0_6.index (pointOf i) (0 : Fin 2) * 5000 ≤ (i 0).val ∧ (i 0).val < win0_6.index (pointOf i) (0 : Fin 2) * 5000 + 5000; rw [e60, hp]; omega
  | ⟨1, _⟩ => show win0_6.index (pointOf i) (1 : Fin 2) * 64 ≤ (i 1).val ∧ (i 1).val < win0_6.index (pointOf i) (1 : Fin 2) * 64 + 64; rw [e61]; omega

/-! ## The arrays after the region -/

/-- The first result array ends as `x_src · W_neiᵀ`. -/
theorem final5 (c : Dev nD) : (dats m 0 c).arrAt 5 cfg0.N
    = neiRows (m ((c : Thread nD τ).loc main_arg0)) (m ((c : Thread nD τ).loc main_arg4)) :=
  (dats m 0 c).arrAt_eq_of_cover 5 _ (fun t _ => flushed5_eq m c t) cover5

/-- The second result array ends as `x_dst · W_selfᵀ + b_self`. -/
theorem final6 (c : Dev nD) : (dats m 0 c).arrAt 6 cfg0.N
    = selfRows (m ((c : Thread nD τ).loc main_arg1)) (m ((c : Thread nD τ).loc main_arg5)) (m ((c : Thread nD τ).loc main_arg6)) :=
  (dats m 0 c).arrAt_eq_of_cover 6 _ (fun t _ => flushed6_eq m c t) cover6

end Cert.KernelIdeal.Arrays

end
-- ==== Proof.KernelRun.lean ====
/-
  The kernel program's run, with its result named.

  After the kernel region the program's remaining host lines gather, scale and scatter-add over the two arrays the region
  left. Those arrays are `neiRows x_src W_nei` and `selfRows x_dst W_self b_self`, the edge list and the edge weights are
  untouched arguments, so the program's result is
  `edgeSum (neiRows x_src W_nei) (selfRows x_dst W_self b_self) edge_index edge_weight`.
-/
import proofs.«145558_j23124103921910_1_alg».proof.Proof.Arrays
import Idealize.ShloMosaic.Lib.Pipeline.FrameSuffix

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Spec Cert.KernelIdeal.Arrays

variable (m : (ℓ : Loc nD τ sig) → Buf (Elt Ideal) ℓ) (ρ : Dev nD → PrngReg)

set_option maxHeartbeats 2000000 in
/-- The host lines after the region, from any buffer contents `W`: the result buffer ends at the edge sum over the two
    result arrays of the region, the edge list and the edge weights as `W` has them. -/
theorem tail_eq (W : Valuation τ sig (Elt Ideal)) :
    StableHlo.after hostOps1 W (Proc.devRef .tc main_v24)
      = edgeSum (W (Proc.devRef .tc main_v3_0)) (W (Proc.devRef .tc main_v3_1)) (W (Proc.devRef .tc main_arg2)) (W (Proc.devRef .tc main_arg3)) := by
  after_results_simp
  rfl

theorem edgeSum_congr {h h' o o' : FVec Ideal S100000x64 .f32} {e e' : IVec S2x1250000 32} {a a' : FVec Ideal S1250000 .f32}
    (hh : h = h') (ho : o = o') (he : e = e') (ha : a = a') : edgeSum h o e a = edgeSum h' o' e' a' := by
  rw [hh, ho, he, ha]

/-- The program's result as a function of its arguments. -/
abbrev result (c : Dev nD) : FVec Ideal S100000x64 .f32 :=
  edgeSum (neiRows (m ((c.tc : Thread nD τ).loc main_arg0)) (m ((c.tc : Thread nD τ).loc main_arg4)))
    (selfRows (m ((c.tc : Thread nD τ).loc main_arg1)) (m ((c.tc : Thread nD τ).loc main_arg5)) (m ((c.tc : Thread nD τ).loc main_arg6)))
    (m ((c.tc : Thread nD τ).loc main_arg2)) (m ((c.tc : Thread nD τ).loc main_arg3))

/-- What the result buffer holds after the whole program. -/
theorem result_eq (c : Dev nD) :
    Pipeline.afterTail₀ cfgs (dats m) 0 (V0 m) [hostOps1] c main_v24 = result m c := by
  unfold Pipeline.afterTail₀
  simp only [List.flatten_cons, List.flatten_nil, List.append_nil]
  refine (tail_eq _).trans (edgeSum_congr ?_ ?_ ?_ ?_)
  · exact (Pipeline.withArrays_arr spec0 launch0.win.arr_inj c _ _ 5).trans (final5 m c)
  · exact (Pipeline.withArrays_arr spec0 launch0.win.arr_inj c _ _ 6).trans (final6 m c)
  · exact (Pipeline.withArrays_of_ne _ c (V0 m c) _ main_arg2 (by exact (by decide : ∀ w, Pipeline.arrRef spec0 w ≠ main_arg2))).trans (V_main_arg2 m c)
  · exact (Pipeline.withArrays_of_ne _ c (V0 m c) _ main_arg3 (by exact (by decide : ∀ w, Pipeline.arrRef spec0 w ≠ main_arg3))).trans (V_main_arg3 m c)

/-- Every weakly fair execution of the program terminates with the result buffer at `result` and the arguments
    unchanged: the result buffer is one the region does not stage, so it ends as the later host lines leave it; the two
    node tables are staged inputs and end at their entry contents; the other arguments are written by nothing. -/
theorem run : θ_run defs (onTc (τ := τ) (main (F := Ideal))) ⟨m, fun _ => 0, ρ⟩ (fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v24 (Pipeline.mem_restRefs_of main_v24 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Tail

end
-- ==== Proof.RefValue.lean ====
/-
  The reference's result as the same function of the arguments.

  The reference multiplies each node table by its transposed weight matrix on the host, adds the bias broadcast over
  the rows, and passes the two products to the same gather, scaling and scatter-add as the kernel's program. Entry
  `(r, j)` of a host product is `∑ k, x[r, k] · wᵀ[k, j]` with `wᵀ[k, j] = w[j, k]`: the functions `neiRows` and
  `selfRows`.
-/
import proofs.«145558_j23124103921910_1_alg».proof.Proof.Gen.ReferenceIdeal.Read
import proofs.«145558_j23124103921910_1_alg».proof.Proof.Gen.KernelIdeal
import proofs.«145558_j23124103921910_1_alg».proof.Proof.Edges

noncomputable section

namespace Cert.ReferenceIdeal.RefValue

open Cert.ReferenceIdeal Cert.ReferenceIdeal.Gen Cert.ReferenceIdeal.Read Idealize.ShloMosaic Idealize.ShloMosaic.TcCoe Idealize.SL.Sem
open Cert.KernelIdeal.Spec (nodeAt weightAt biasAt neiRows selfRows edgeSum)

/-! ## The operand entries the host products read -/

theorem nei_node (i : S100000x64.Idx) (k : Fin 64) : lidx_main_v10 i k = nodeAt i k :=
  funext fun a => by match a with | ⟨0, _⟩ => rfl | ⟨1, _⟩ => rfl
theorem nei_weight (i : S100000x64.Idx) (k : Fin 64) : idx_main_v9 (ridx_main_v10 i k) = weightAt i k :=
  funext fun a => by match a with | ⟨0, _⟩ => rfl | ⟨1, _⟩ => rfl
theorem self_node (i : S100000x64.Idx) (k : Fin 64) : lidx_main_v5 i k = nodeAt i k :=
  funext fun a => by match a with | ⟨0, _⟩ => rfl | ⟨1, _⟩ => rfl
theorem self_weight (i : S100000x64.Idx) (k : Fin 64) : idx_main_v4 (ridx_main_v5 i k) = weightAt i k :=
  funext fun a => by match a with | ⟨0, _⟩ => rfl | ⟨1, _⟩ => rfl
theorem self_bias (i : S100000x64.Idx) : idx_main_v6 (idx_main_v7 i) = biasAt i :=
  funext fun a => by match a with | ⟨0, _⟩ => rfl

/-! ## The two host products -/

/-- The neighbour transform on the host is `x · wᵀ`. -/
theorem nei_eq (x0 : (⟨S100000x64, .f32⟩ : BufTy).Contents (Elt Ideal)) (x4 : (⟨S64x64, .f32⟩ : BufTy).Contents (Elt Ideal)) :
    val_main_v10 (F := Ideal) x0 x4 = neiRows x0 x4 := by
  funext i
  rw [val_main_v10_apply]
  unfold neiRows
  refine Finset.sum_congr rfl fun k _ => ?_
  rw [val_main_v9_apply, nei_node, nei_weight]

/-- The self term on the host is `x · wᵀ + b`. -/
theorem self_eq (x1 : (⟨S100000x64, .f32⟩ : BufTy).Contents (Elt Ideal)) (x5 : (⟨S64x64, .f32⟩ : BufTy).Contents (Elt Ideal))
    (x6 : (⟨S64, .f32⟩ : BufTy).Contents (Elt Ideal)) :
    val_main_v8 (F := Ideal) x1 x5 x6 = selfRows x1 x5 x6 := by
  funext i
  rw [val_main_v8_apply, val_main_v5_apply, val_main_v7_apply, val_main_v6_apply, self_bias, Ideal.addf_def]
  unfold selfRows
  refine congrArg (· + x6 (biasAt i)) (Finset.sum_congr rfl fun k _ => ?_)
  rw [val_main_v4_apply, self_node, self_weight]

/-! ## The result -/

/-- The reference's result is the edge sum over the two products. -/
theorem result_eq (x0 x1 : (⟨S100000x64, .f32⟩ : BufTy).Contents (Elt Ideal)) (x2 : (⟨S2x1250000, .i32⟩ : BufTy).Contents (Elt Ideal))
    (x3 : (⟨S1250000, .f32⟩ : BufTy).Contents (Elt Ideal)) (x4 x5 : (⟨S64x64, .f32⟩ : BufTy).Contents (Elt Ideal))
    (x6 : (⟨S64, .f32⟩ : BufTy).Contents (Elt Ideal)) :
    val_main_v27 (F := Ideal) x0 x1 x2 x3 x4 x5 x6 = edgeSum (neiRows x0 x4) (selfRows x1 x5 x6) x2 x3 := by
  rw [← nei_eq, ← self_eq]
  rfl

end Cert.ReferenceIdeal.RefValue

end
-- ==== Proof.lean ====
/-
  A bipartite graph convolution: `out = (x_dst · W_selfᵀ + b_self)` with, for every edge `(s, d)` of weight `a`, the row
  `a · (x_src · W_neiᵀ)[s]` added into row `d`.

  The kernel's program computes the two dense products in one kernel region over 20 blocks of 5000 rows (operands
  narrowed to bf16, accumulated in f32) and leaves the gather, the scaling and the scatter-add to host lines after
  the region; the reference does all of it on the host. Over the extended reals a change of float format is the
  identity and both a block product into a zero accumulator and a host `dot_general` are the plain sum over the shared
  coordinate, so both programs end at
  `edgeSum (neiRows x_src W_nei) (selfRows x_dst W_self b_self) edge_index edge_weight` (Proof/Edges.lean):
  the kernel's arrays block by block (Proof/Payloads.lean, Proof/Arrays.lean) and its host tail (Proof/KernelRun.lean),
  the reference's operations one at a time (Proof/RefValue.lean). No law beyond reading both sums in the same order is
  used, so finiteness of the inputs is never opened. The idealization rewrote nothing, so `preserves` is trivial.
-/
import proofs.«145558_j23124103921910_1_alg».proof.Defs
import proofs.«145558_j23124103921910_1_alg».proof.Proof.Gen.Kernel
import proofs.«145558_j23124103921910_1_alg».proof.Proof.Gen.Kernel.Skeleton
import proofs.«145558_j23124103921910_1_alg».proof.Proof.Gen.Kernel.Launch
import proofs.«145558_j23124103921910_1_alg».proof.Proof.Gen.Kernel.Points
import proofs.«145558_j23124103921910_1_alg».proof.Proof.Gen.Kernel.Frame
import proofs.«145558_j23124103921910_1_alg».proof.Proof.Gen.KernelIdeal
import proofs.«145558_j23124103921910_1_alg».proof.Proof.Gen.KernelIdeal.Skeleton
import proofs.«145558_j23124103921910_1_alg».proof.Proof.Gen.KernelIdeal.Launch
import proofs.«145558_j23124103921910_1_alg».proof.Proof.Gen.KernelIdeal.Points
import proofs.«145558_j23124103921910_1_alg».proof.Proof.Gen.KernelIdeal.Frame
import proofs.«145558_j23124103921910_1_alg».proof.Proof.Gen.ReferenceIdeal
import proofs.«145558_j23124103921910_1_alg».proof.Proof.Gen.ReferenceIdeal.Run
import proofs.«145558_j23124103921910_1_alg».proof.Proof.Gen.ReferenceIdeal.Read
import proofs.«145558_j23124103921910_1_alg».proof.Proof.Gen.Pre_finite_inputs
import proofs.«145558_j23124103921910_1_alg».proof.Proof.KernelRun
import proofs.«145558_j23124103921910_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the edge sum over `x_src · W_neiᵀ` and `x_dst · W_selfᵀ + b_self` of arguments that agree. -/
theorem algebraic : Cert.algebraic_KernelIdeal_ReferenceIdeal := by
  intro m ρ m' ρ' _ hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  refine (Cert.ReferenceIdeal.Read.val_main_v27_eq _ _ _ _ _ _ _).trans ((Cert.ReferenceIdeal.RefValue.result_eq _ _ _ _ _ _ _).trans ?_)
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
